-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x1x1600x161 : Shape := ⟨4, ![128, 1, 1600, 161]⟩
abbrev S161 : Shape := ⟨1, ![161]⟩
abbrev S_ : Shape := ⟨0, ![]⟩

class Facts : Prop where
  bcast_S_S128x1x1600x161 : S_.BroadcastsInDim S128x1x1600x161 (![] : Fin 0 → Fin S128x1x1600x161.rank)
  reducesTo_S128x1x1600x161_S_d0_1_2_3 : S128x1x1600x161.ReducesTo [0, 1, 2, 3] S_
  h_S_ : 0 < S_.numel
  bcast_S_S161 : S_.BroadcastsInDim S161 (![] : Fin 0 → Fin S161.rank)
  reducesTo_S161_S_d0 : S161.ReducesTo [0] S_

variable [Facts]

def fn {F : FTy → Type} [FloatOps F] (main_arg0 : FVec F S128x1x1600x161 .f32) (main_arg1 : FVec F S161 .f32) (main_arg2 : FVec F S161 .f32) : IVec S_ 1 :=
  let main_v0 : FVec F S128x1x1600x161 .f32 := Host.absf main_arg0
  let main_cst : FVec F S_ .f32 := constant S_ .f32 0x7F800000#32
  let main_v1 : FVec F S128x1x1600x161 .f32 := broadcastInDim S128x1x1600x161 ![] bcast_S_S128x1x1600x161 main_cst
  let main_v2 : IVec S128x1x1600x161 1 := cmpf .olt main_v0 main_v1
  let main_c : IVec S_ 1 := constantI S_ 1 1#1
  let main_v3 : IVec S_ 1 := (fun x v => Host.reduce IntOp.andi x v reducesTo_S128x1x1600x161_S_d0_1_2_3 h_S_) main_v2 main_c
  let main_v4 : FVec F S161 .f32 := Host.absf main_arg1
  let main_cst_0 : FVec F S_ .f32 := constant S_ .f32 0x7F800000#32
  let main_v5 : FVec F S161 .f32 := broadcastInDim S161 ![] bcast_S_S161 main_cst_0
  let main_v6 : IVec S161 1 := cmpf .olt main_v4 main_v5
  let main_c_1 : IVec S_ 1 := constantI S_ 1 1#1
  let main_v7 : IVec S_ 1 := (fun x v => Host.reduce IntOp.andi x v reducesTo_S161_S_d0 h_S_) main_v6 main_c_1
  let main_v8 : IVec S_ 1 := andi main_v3 main_v7
  let main_v9 : FVec F S161 .f32 := Host.absf main_arg2
  let main_cst_2 : FVec F S_ .f32 := constant S_ .f32 0x7F800000#32
  let main_v10 : FVec F S161 .f32 := broadcastInDim S161 ![] bcast_S_S161 main_cst_2
  let main_v11 : IVec S161 1 := cmpf .olt main_v9 main_v10
  let main_c_3 : IVec S_ 1 := constantI S_ 1 1#1
  let main_v12 : IVec S_ 1 := (fun x v => Host.reduce IntOp.andi x v reducesTo_S161_S_d0 h_S_) main_v11 main_c_3
  let main_v13 : IVec S_ 1 := andi main_v8 main_v12
  main_v13
-- ==== Kernel.lean ====
abbrev S128x1x1600x161 : Shape := ⟨4, ![128, 1, 1600, 161]⟩
abbrev S161 : Shape := ⟨1, ![161]⟩
abbrev S1x161 : Shape := ⟨2, ![1, 161]⟩
abbrev S204800x161 : Shape := ⟨2, ![204800, 161]⟩
abbrev S8192x161 : Shape := ⟨2, ![8192, 161]⟩

abbrev nBuf : Space → Nat
  | .hbm => 9
  | .vmem => 5
  | .smem => 0
  | _ => 0

abbrev bufTy : (tb : Table) → Fin (tcTables nBuf tb) → BufTy
  | .hbm, ⟨0, _⟩ => ⟨S128x1x1600x161, .f32⟩
  | .hbm, ⟨1, _⟩ => ⟨S161, .f32⟩
  | .hbm, ⟨2, _⟩ => ⟨S161, .f32⟩
  | .hbm, ⟨3, _⟩ => ⟨S161, .i1⟩
  | .hbm, ⟨4, _⟩ => ⟨S161, .f32⟩
  | .hbm, ⟨5, _⟩ => ⟨S1x161, .f32⟩
  | .hbm, ⟨6, _⟩ => ⟨S204800x161, .f32⟩
  | .hbm, ⟨7, _⟩ => ⟨S204800x161, .f32⟩
  | .hbm, ⟨8, _⟩ => ⟨S128x1x1600x161, .f32⟩
  | .local _ .vmem, ⟨0, _⟩ => ⟨S8192x161, .f32⟩
  | .local _ .vmem, ⟨1, _⟩ => ⟨S8192x161, .f32⟩
  | .local _ .vmem, ⟨2, _⟩ => ⟨S1x161, .f32⟩
  | .local _ .vmem, ⟨3, _⟩ => ⟨S8192x161, .f32⟩
  | .local _ .vmem, ⟨4, _⟩ => ⟨S8192x161, .f32⟩
  | _, _ => ⟨S128x1x1600x161, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x161 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x161 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8192x161 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S161_S1x161 : S161.ShapeCasts S1x161
  shapeCasts_S128x1x1600x161_S204800x161 : S128x1x1600x161.ShapeCasts S204800x161
  inb_S8192x161_S8192x161_0_0 : ∀ a, (![0, 0] : Fin 2 → Nat) a + S8192x161.size a ≤ S8192x161.size a
  h_S8192x161 : 0 < S8192x161.numel
  shapeCasts_S8192x161_S8192x161 : S8192x161.ShapeCasts S8192x161
  inb_S1x161_S1x161_0_0 : ∀ a, (![0, 0] : Fin 2 → Nat) a + S1x161.size a ≤ S1x161.size a
  h_S1x161 : 0 < S1x161.numel
  shapeCasts_S1x161_S1x161 : S1x161.ShapeCasts S1x161
  broadcasts_S1x161_S8192x161 : S1x161.Broadcasts S8192x161
  shapeCasts_S204800x161_S128x1x1600x161 : S204800x161.ShapeCasts S128x1x1600x161
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x161.size a ≤ S204800x161.size a
  hwx0_0 : ∀ i : grid0.Coords, EltTy.bits .f32 = 32 ∨ (Rect.block (s := S204800x161) S8192x161.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x161.size a ≤ S1x161.size a
  hwx0_1 : ∀ i : grid0.Coords, EltTy.bits .f32 = 32 ∨ (Rect.block (s := S1x161) S1x161.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x161.size a ≤ S204800x161.size a
  hwx0_2 : ∀ i : grid0.Coords, EltTy.bits .f32 = 32 ∨ (Rect.block (s := S204800x161) S8192x161.size (cc0_transform_2 i) (hinb0_2 i)).WholeWords (EltTy.packing .f32)

variable [Facts₀]

abbrev win0_0 : Pipeline.Window sig grid0 :=
  Pipeline.Window.ofSpec (Memref.whole main_v3) S8192x161.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x161.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S8192x161.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S128x1x1600x161 : Shape := ⟨4, ![128, 1, 1600, 161]⟩
abbrev S161 : Shape := ⟨1, ![161]⟩
abbrev S1x1x1x161 : Shape := ⟨4, ![1, 1, 1, 161]⟩

abbrev nBuf : Space → Nat
  | .hbm => 8
  | .vmem => 0
  | .smem => 0
  | _ => 0

abbrev bufTy : (tb : Table) → Fin (tcTables nBuf tb) → BufTy
  | .hbm, ⟨0, _⟩ => ⟨S128x1x1600x161, .f32⟩
  | .hbm, ⟨1, _⟩ => ⟨S161, .f32⟩
  | .hbm, ⟨2, _⟩ => ⟨S161, .f32⟩
  | .hbm, ⟨3, _⟩ => ⟨S161, .i1⟩
  | .hbm, ⟨4, _⟩ => ⟨S161, .f32⟩
  | .hbm, ⟨5, _⟩ => ⟨S1x1x1x161, .f32⟩
  | .hbm, ⟨6, _⟩ => ⟨S128x1x1600x161, .f32⟩
  | .hbm, ⟨7, _⟩ => ⟨S128x1x1600x161, .f32⟩
  | _, _ => ⟨S128x1x1600x161, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  shapeCasts_S161_S1x1x1x161 : S161.ShapeCasts S1x1x1x161
  bcast_S1x1x1x161_S128x1x1600x161_0_1_2_3 : S1x1x1x161.BroadcastsInDim S128x1x1600x161 (![0, 1, 2, 3] : Fin 4 → Fin S128x1x1600x161.rank)

variable [Facts₀]

class Facts : Prop extends Facts₀ where

variable [Facts]
-- ==== Proof.ChannelMask.lean ====
/-
  The mathematics both programs compute, with no program in sight.

  A channel `f` of 161 is KEPT when `u f < p f`; the keep mask is that comparison read as a float (1 where kept,
  0 where dropped). The result is the input `x` of shape [128, 1, 1600, 161] times the mask of its LAST coordinate:
  `masked x u p (b, z, t, f) = x (b, z, t, f) · keep u p f`.

  The kernel reaches this through the row-major flattening [128, 1, 1600, 161] → [204800, 161]: row `b · 1600 + t`
  of the flat array is row `(b, 0, t)` of `x`, the mask is one row [1, 161] multiplied into every flat row, and the
  product is unflattened. This file proves that this detour is `masked`; nothing here depends on what a float is
  (every statement holds for any float interpretation `F`), because both sides apply the same comparison, the same
  conversion and the same product to the same entries.
-/
import Idealize.ShloMosaic.Lib.ValueIdx
import Idealize.ShloMosaic.Lib.ValueLayout
import Idealize.ShloMosaic.Lib.Pipeline.Value

noncomputable section

namespace Cert.ChannelMask

open Idealize.ShloMosaic Idealize.ShloMosaic.ValueIdx

variable {F : FTy → Type} [FloatOps F]

/-- The input's shape, the channel axis last. -/
abbrev Sx : Shape := ⟨4, ![128, 1, 1600, 161]⟩
/-- One value per channel. -/
abbrev Sc : Shape := ⟨1, ![161]⟩
/-- The mask as a single row. -/
abbrev Srow : Shape := ⟨2, ![1, 161]⟩
/-- The input with its three leading axes flattened into 204800 rows. -/
abbrev Sflat : Shape := ⟨2, ![204800, 161]⟩

/-- The channel coordinate of an index of the input. -/
abbrev chan (i : Sx.Idx) : Fin 161 := ⟨(i 3).val, (i 3).isLt⟩

/-- The keep mask: the comparison `u f < p f` per channel, read as a float. -/
def keep (u p : FVec F Sc .f32) : FVec F Sc .f32 := uitofp .f32 (cmpf .olt u p)

/-- The result: every entry of `x` times the keep mask of its channel. -/
def masked (x : FVec F Sx .f32) (u p : FVec F Sc .f32) : FVec F Sx .f32 :=
  fun i => FloatOps.mulf (x i) (keep u p (ix1 (chan i)))

theorem masked_apply (x : FVec F Sx .f32) (u p : FVec F Sc .f32) (b : Fin 128) (z : Fin 1) (t : Fin 1600) (f : Fin 161) :
    masked x u p (ix4 b z t f) = FloatOps.mulf (x (ix4 b z t f)) (keep u p (ix1 f)) := rfl

/-! ## The flattening -/

/-- The flat row that holds row `(b, 0, t)` of the input. -/
abbrev flatRow (b : Fin 128) (t : Fin 1600) : Fin 204800 := ⟨b.val * 1600 + t.val, by have := b.isLt; have := t.isLt; omega⟩

/-- Flattening puts entry `(b, z, t, f)` at `(b · 1600 + t, f)`: the two have the same row-major position
    (`z` ranges over one value). -/
theorem flatten_apply {α : Type} (x : Sx.Idx → α) (h : Sx.ShapeCasts Sflat) (b : Fin 128) (z : Fin 1) (t : Fin 1600) (f : Fin 161) :
    shapeCast Sflat x h (ix2 (flatRow b t) f) = x (ix4 b z t f) :=
  shapeCast_apply x h _ _ (by
    have hz : z.val = 0 := by omega
    rw [Shape.rowMajor_val_four, Shape.rowMajor_val_two]
    show ((b.val * 1 + z.val) * 1600 + t.val) * 161 + f.val = (b.val * 1600 + t.val) * 161 + f.val
    rw [hz, Nat.mul_one, Nat.add_zero])

/-- Unflattening reads entry `(b, z, t, f)` from `(b · 1600 + t, f)`. -/
theorem unflatten_apply {α : Type} (y : Sflat.Idx → α) (h : Sflat.ShapeCasts Sx) (b : Fin 128) (z : Fin 1) (t : Fin 1600) (f : Fin 161) :
    shapeCast Sx y h (ix4 b z t f) = y (ix2 (flatRow b t) f) :=
  shapeCast_apply y h _ _ (by
    have hz : z.val = 0 := by omega
    rw [Shape.rowMajor_val_four, Shape.rowMajor_val_two]
    show (b.val * 1600 + t.val) * 161 + f.val = ((b.val * 1 + z.val) * 1600 + t.val) * 161 + f.val
    rw [hz, Nat.mul_one, Nat.add_zero])

/-! ## The flat product -/

/-- Every row of a flat array times ONE row: entry `(r, f)` is `y (r, f) · k (0, f)`. -/
def rowProduct (y : FVec F Sflat .f32) (k : FVec F Srow .f32) : FVec F Sflat .f32 :=
  fun i => FloatOps.mulf (y i) (k (ix2 (0 : Fin 1) (i 1)))

theorem rowProduct_apply (y : FVec F Sflat .f32) (k : FVec F Srow .f32) (r : Fin 204800) (f : Fin 161) :
    rowProduct y k (ix2 r f) = FloatOps.mulf (y (ix2 r f)) (k (ix2 (0 : Fin 1) f)) := rfl

/-- THE DETOUR IS THE RESULT: flatten `x`, lay the keep mask out as one row, multiply every flat row by it, unflatten —
    entry `(b, z, t, f)` is `x (b, z, t, f) · keep f`. -/
theorem unflatten_rowProduct (x : FVec F Sx .f32) (u p : FVec F Sc .f32)
    (h1 : Sx.ShapeCasts Sflat) (h2 : Sc.ShapeCasts Srow) (h3 : Sflat.ShapeCasts Sx) :
    shapeCast Sx (rowProduct (shapeCast Sflat x h1) (shapeCast Srow (keep u p) h2)) h3 = masked x u p := by
  funext i
  obtain ⟨b, z, t, f, rfl⟩ : ∃ (b : Fin 128) (z : Fin 1) (t : Fin 1600) (f : Fin 161), i = ix4 b z t f :=
    ⟨i 0, i 1, i 2, i 3, eq_ix4 i⟩
  rw [unflatten_apply, rowProduct_apply, flatten_apply x h1 b z t f, shapeCast_a_1a_apply, masked_apply]

end Cert.ChannelMask

end
-- ==== Proof.RefValue.lean ====
/-
  The reference computes `masked`: it compares `u` with `p` per channel, converts the comparison to a float, lays the
  161 values out as [1, 1, 1, 161], broadcasts them over [128, 1, 1600, 161] and multiplies into `x`. Read at an index
  `i`, the broadcast keeps only `i`'s channel coordinate and the reshape of a one-axis array to [1, 1, 1, 161] keeps
  that coordinate too, so entry `i` is `x i · keep (channel of i)`.
-/
import proofs.«116570_j5643587027453_1_alg».proof.Defs
import proofs.«116570_j5643587027453_1_alg».proof.Proof.Gen.ReferenceIdeal.Run
import proofs.«116570_j5643587027453_1_alg».proof.Proof.Gen.ReferenceIdeal.Read
import proofs.«116570_j5643587027453_1_alg».proof.Proof.ChannelMask

noncomputable section

namespace Cert.ReferenceIdeal.RefValue

open Cert.ReferenceIdeal Cert.ReferenceIdeal.Read Idealize.ShloMosaic Idealize.ShloMosaic.ValueIdx Cert.ChannelMask

variable {F : FTy → Type} [FloatOps F]

/-- Through the broadcast and then the reshape, an index of the result lands on its own channel. -/
theorem chan_idx (i : S128x1x1600x161.Idx) : idx_main_v2 (idx_main_v3 i) = ix1 (chan i) := by
  funext a
  match a with
  | ⟨0, _⟩ => exact Fin.ext (by show ((0 * 1 + 0) * 1 + 0) * 161 + (i 3).val = (i 3).val; omega)

/-- The reference's result, as a function of its three arguments, is `masked`. -/
theorem result_eq (x : FVec F Sx .f32) (u p : FVec F Sc .f32) : val_main_v4 (F := F) x u p = masked x u p := by
  funext i
  rw [val_main_v4_apply, val_main_v3_apply, val_main_v2_apply, chan_idx]
  rfl

end Cert.ReferenceIdeal.RefValue

end
-- ==== Proof.KernelBlocks.lean ====
/-
  What the kernel's region leaves in its output array, as ONE function of what the region finds.

  The region runs over 25 grid points. At point `t` it stages rows `8192 · t … 8192 · t + 8191` of the flat input
  [204800, 161] and the whole one-row mask [1, 161], multiplies every staged row by the mask row, and writes the
  8192 rows back to the same place in the output. So what point `t` writes is block `t` of `rowProduct` of the flat
  input and the mask row; the 25 blocks tile the 204800 rows (row `r` is in block `r / 8192`), hence the output
  array after the region IS that `rowProduct`.
-/
import proofs.«116570_j5643587027453_1_alg».proof.Proof.Gen.KernelIdeal.Frame
import proofs.«116570_j5643587027453_1_alg».proof.Proof.ChannelMask
import Idealize.ShloMosaic.Lib.Pipeline.Value
import Idealize.ShloMosaic.Lib.ValueIdx
import Idealize.ShloMosaic.Lib.ValueLayout

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.Pipeline (Dat)
open Idealize.ShloMosaic.ValueIdx Cert.ChannelMask

variable {F : FTy → Type} [FloatOps F]
variable (m : (ℓ : Loc nD τ sig) → Buf (Elt F) ℓ) (ρ : Dev nD → PrngReg)

/-! ## The body's arithmetic at an index -/

/-- The body's one stored value at row `p`, channel `q` of the staged block: the staged input there times the mask
    row at channel `q` (the two same-shape casts are identities; the broadcast of one row reads that row). -/
theorem pay_ix2 (x0 : Vec F S8192x161 .f32) (x1 : Vec F S1x161 .f32) (p : Fin 8192) (q : Fin 161) :
    k0_pay1 x0 x1 (ix2 p q) = FloatOps.mulf (x0 (ix2 p q)) (x1 (ix2 (0 : Fin 1) q)) := by
  unfold k0_pay1
  show FloatOps.mulf (shapeCast S8192x161 x0 shapeCasts_S8192x161_S8192x161 (ix2 p q))
      (broadcastTo S8192x161 (shapeCast S1x161 x1 shapeCasts_S1x161_S1x161) broadcasts_S1x161_S8192x161 (ix2 p q)) = _
  rw [shapeCast_self, shapeCast_self, broadcastTo_1b_ab_apply]

/-- The same at any index of the block. -/
theorem pay_at (x0 : Vec F S8192x161 .f32) (x1 : Vec F S1x161 .f32) (j : S8192x161.Idx) :
    k0_pay1 x0 x1 j = FloatOps.mulf (x0 j) (x1 (ix2 (0 : Fin 1) (j 1))) := by
  obtain ⟨p, q, rfl⟩ : ∃ (p : Fin 8192) (q : Fin 161), j = ix2 p q := ⟨j 0, j 1, eq_ix2 j⟩
  exact pay_ix2 x0 x1 p q

/-! ## What a point writes back -/

/-- The output array as one function of what the region finds: every flat row times the mask row. -/
def flatOut (c : Dev nD) : S204800x161.Idx → Elt F .f32 := rowProduct (V m c main_v3) (V m c main_v2)

theorem hz : (![0, 0] : Fin 2 → Nat) = fun _ => 0 := funext fun a => by fin_cases a <;> rfl

/-- The printed index maps over the 25 points: the input's block moves with the output's, the mask's block never moves,
    and the output's block index is the point's number on the row axis, 0 on the channel axis. -/
theorem idx_facts : ∀ t : Fin cfg0.N, win0_0.index t (0 : Fin 2) = win0_2.index t (0 : Fin 2)
    ∧ win0_0.index t (1 : Fin 2) = win0_2.index t (1 : Fin 2)
    ∧ win0_1.index t (0 : Fin 2) = 0
    ∧ win0_1.index t (1 : Fin 2) = 0
    ∧ win0_2.index t (1 : Fin 2) = 0
    ∧ win0_2.index t (0 : Fin 2) ≤ 24 :=
  (by decide +kernel : ∀ t : Fin grid0.N, _)

/-- Every row block is some point's. -/
theorem idx_onto : ∀ (q0 : Fin 25), ∃ t : Fin cfg0.N, win0_2.index t = ![q0.val, 0] :=
  (by decide +kernel : ∀ (q0 : Fin 25), ∃ t : Fin grid0.N, win0_2.index t = ![q0.val, 0])

/-- WHAT POINT `t` WRITES BACK is block `t` of `flatOut`. -/
theorem flushed_eq (c : Dev nD) (t : Fin cfg0.N) :
    (dats m 0 c).flushed 2 t = ((cfg0.win 2).blk t).view.read (Elt F) (flatOut m c) := by
  show (cfg0.win 2).cut (grid0.coords t) ((dats m 0 c).after 2 t) = _
  rw [after0_2]
  unfold out0_2
  rw [View.canon_unit_zero hz]
  simp only [View.ld_unit_zero (S := S8192x161) hz, View.ld_unit_zero (S := S1x161) hz]
  obtain ⟨e0, e1, e2, e3, e4, e5⟩ := idx_facts t
  funext j
  refine (pay_at (iblk m c 0 t) (iblk m c 1 t) j).trans ?_
  show FloatOps.mulf (V m c main_v3 (((cfg0.win 0).blk t).view.emb j))
      (V m c main_v2 (((cfg0.win 1).blk t).view.emb (ix2 (0 : Fin 1) (j 1))))
    = FloatOps.mulf (V m c main_v3 (((cfg0.win 2).blk t).view.emb j))
      (V m c main_v2 (ix2 (0 : Fin 1) ((((cfg0.win 2).blk t).view.emb j) 1)))
  have h0 : ((cfg0.win 0).blk t).view.emb j = ((cfg0.win 2).blk t).view.emb j := by
    funext a; apply Fin.ext
    match a with
    | ⟨0, _⟩ => show win0_0.index t (0 : Fin 2) * 8192 + 1 * (j 0).val = win0_2.index t (0 : Fin 2) * 8192 + 1 * (j 0).val; omega
    | ⟨1, _⟩ => show win0_0.index t (1 : Fin 2) * 161 + 1 * (j 1).val = win0_2.index t (1 : Fin 2) * 161 + 1 * (j 1).val; omega
  have h1 : ((cfg0.win 1).blk t).view.emb (ix2 (0 : Fin 1) (j 1)) = ix2 (0 : Fin 1) ((((cfg0.win 2).blk t).view.emb j) 1) := by
    funext a; apply Fin.ext
    match a with
    | ⟨0, _⟩ => show win0_1.index t (0 : Fin 2) * 1 + 1 * 0 = 0; omega
    | ⟨1, _⟩ => show win0_1.index t (1 : Fin 2) * 161 + 1 * (j 1).val = win0_2.index t (1 : Fin 2) * 161 + 1 * (j 1).val; omega
  rw [h0, h1]
  rfl

/-! ## The blocks tile the array -/

/-- An index is in point `t`'s block iff each coordinate is in the block's range on its axis. -/
theorem mem_blk (t : Fin cfg0.N) (i : S204800x161.Idx) :
    i ∈ ((cfg0.win 2).blk t).view.set ↔ ∀ a : Fin 2, win0_2.index t a * S8192x161.size a ≤ (i a).val ∧ (i a).val < win0_2.index t a * S8192x161.size a + S8192x161.size a := by
  show i ∈ ((View.whole main_v4).slice (win0_2.rect t)).set ↔ _
  rw [View.set_slice_whole, Rect.mem_set_unit]
  exact Iff.rfl

/-- Row `r` lies in the block of the point whose row-block index is `r / 8192`. -/
theorem cover (i : S204800x161.Idx) :
    ∃ t : Fin cfg0.N, (cfg0.win 2).flush t = true ∧ i ∈ ((cfg0.win 2).blk t).view.set := by
  have hi0 : (i 0).val < 204800 := (i 0).isLt
  have hi1 : (i 1).val < 161 := (i 1).isLt
  obtain ⟨t, ht⟩ := idx_onto ⟨(i 0).val / 8192, by omega⟩
  have q0 : win0_2.index t (0 : Fin 2) = (i 0).val / 8192 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 8192 ≤ (i 0).val ∧ (i 0).val < win0_2.index t (0 : Fin 2) * 8192 + 8192; omega
  | ⟨1, _⟩ => show win0_2.index t (1 : Fin 2) * 161 ≤ (i 1).val ∧ (i 1).val < win0_2.index t (1 : Fin 2) * 161 + 161; omega

/-- THE OUTPUT ARRAY after the region is `flatOut`. -/
theorem final (c : Dev nD) : (dats m 0 c).arrAt 2 cfg0.N = flatOut m c :=
  (dats m 0 c).arrAt_eq_of_cover 2 (flatOut m c) (fun t _ => flushed_eq m c t) cover

end Cert.KernelIdeal.Blocks

end
-- ==== Proof.KernelValue.lean ====
/-
  The kernel's whole program computes `masked`.

  Before the region the host lines build what the region finds: the keep mask (compare, convert) laid out as one row
  [1, 161], and the input flattened to [204800, 161]. The region leaves `rowProduct` of those two in its output array
  (the blocks module). After the region one host line unflattens that array to [128, 1, 1600, 161]. By the
  specification's `unflatten_rowProduct` the result is `masked` of the three arguments; the arguments themselves are
  never written.
-/
import proofs.«116570_j5643587027453_1_alg».proof.Proof.KernelBlocks
import Idealize.ShloMosaic.Lib.StableHlo.Run

noncomputable section

namespace Cert.KernelIdeal.KernelValue

open Cert.KernelIdeal Cert.KernelIdeal.Gen Cert.KernelIdeal.Blocks Idealize.ShloMosaic Idealize.ShloMosaic.TcCoe Idealize.SL.Sem
open Idealize.ShloMosaic.Pipeline (Dat)
open Idealize.ShloMosaic.ValueIdx Cert.ChannelMask

variable {F : FTy → Type} [FloatOps F]
variable (m : (ℓ : Loc nD τ sig) → Buf (Elt F) ℓ) (ρ : Dev nD → PrngReg)

/-! ## What the region finds -/

/-- The flat input the region stages is the first argument, flattened. -/
theorem found_flat (c : Dev nD) : (V m c main_v3 : S204800x161.Idx → Elt F .f32)
    = shapeCast S204800x161 (m ((c : Thread nD τ).loc main_arg0)) shapeCasts_S128x1x1600x161_S204800x161 := by
  show StableHlo.after hostOps0 (fun b => m (c, b)) (Proc.devRef .tc main_v3) = _
  after_results
  rfl

/-- The mask row the region stages is the keep mask of the second and third arguments, as one row. -/
theorem found_row (c : Dev nD) : (V m c main_v2 : S1x161.Idx → Elt F .f32)
    = shapeCast S1x161 (keep (m ((c : Thread nD τ).loc main_arg1)) (m ((c : Thread nD τ).loc main_arg2))) shapeCasts_S161_S1x161 := by
  show StableHlo.after hostOps0 (fun b => m (c, b)) (Proc.devRef .tc main_v2) = _
  after_results
  rfl

/-! ## The line after the region -/

/-- The program's result is the region's output array, unflattened. -/
theorem tail_result (c : Dev nD) : Pipeline.afterTail₀ cfgs (dats m) 0 (V0 m) [hostOps1] c main_v5
    = shapeCast S128x1x1600x161 (flatOut m c) shapeCasts_S204800x161_S128x1x1600x161 := by
  unfold Pipeline.afterTail₀
  show StableHlo.after hostOps1 _ (Proc.devRef .tc main_v5) = _
  after_results
  have e : Pipeline.withArrays (cfgs 0).spec c (V0 m c) (fun w => (dats m 0 c).arrAt w (cfgs 0).N) (Proc.devRef .tc main_v4)
      = flatOut m c :=
    (Pipeline.withArrays_arr spec0 launch0.win.arr_inj c _ _ 2).trans (final m c)
  rw [e]
  rfl

/-- So the program's result is `masked` of its three arguments. -/
theorem result_eq (c : Dev nD) : Pipeline.afterTail₀ cfgs (dats m) 0 (V0 m) [hostOps1] c main_v5
    = masked (m ((c : Thread nD τ).loc main_arg0)) (m ((c : Thread nD τ).loc main_arg1)) (m ((c : Thread nD τ).loc main_arg2)) := by
  rw [tail_result]
  unfold flatOut
  rw [found_flat, found_row]
  exact unflatten_rowProduct _ _ _ _ _ _

/-! ## The run -/

/-- Every weakly fair execution of the kernel's program terminates with its result at `masked` of the arguments and
    the arguments unchanged. -/
theorem run : θ_run defs (onTc (τ := τ) (main (F := F))) ⟨m, fun _ => 0, ρ⟩ fun r => ∀ c : Dev nD,
      r.2.mem ((c.tc : Thread nD τ).loc main_v5)
        = masked (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
      ⟨((h c).2 main_v5 (Pipeline.mem_restRefs_of main_v5 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c)⟩)
    (run_main m ρ)

end Cert.KernelIdeal.KernelValue

end
-- ==== Proof.lean ====
/-
  The certificate of the per-channel keep mask.

  Both programs compute `masked x u p`: entry `(b, z, t, f)` of the input `x` times the keep mask of channel `f`
  (1 where `u f < p f`, 0 elsewhere). The reference does it in one broadcast product over [128, 1, 1600, 161]; the
  kernel flattens the input to [204800, 161], multiplies 8192 rows at a time by the mask laid out as one row, and
  unflattens. Both apply the same comparison, the same conversion and the same product to the same entries, so the
  results agree entry by entry for ANY reading of the floats, the extended reals among them; no law of arithmetic
  and no finiteness of the inputs is used. The idealized kernel is the kernel's own text read over the extended reals
  (no operation was rewritten), so the idealization claim has nothing to state; the three frames are the generated
  ones (the reference's is its run with the result dropped).
-/
import proofs.«116570_j5643587027453_1_alg».proof.Defs
import proofs.«116570_j5643587027453_1_alg».proof.Proof.Gen.Kernel
import proofs.«116570_j5643587027453_1_alg».proof.Proof.Gen.Kernel.Skeleton
import proofs.«116570_j5643587027453_1_alg».proof.Proof.Gen.Kernel.Launch
import proofs.«116570_j5643587027453_1_alg».proof.Proof.Gen.Kernel.Points
import proofs.«116570_j5643587027453_1_alg».proof.Proof.Gen.Kernel.Frame
import proofs.«116570_j5643587027453_1_alg».proof.Proof.Gen.KernelIdeal
import proofs.«116570_j5643587027453_1_alg».proof.Proof.Gen.KernelIdeal.Skeleton
import proofs.«116570_j5643587027453_1_alg».proof.Proof.Gen.KernelIdeal.Launch
import proofs.«116570_j5643587027453_1_alg».proof.Proof.Gen.KernelIdeal.Points
import proofs.«116570_j5643587027453_1_alg».proof.Proof.Gen.KernelIdeal.Frame
import proofs.«116570_j5643587027453_1_alg».proof.Proof.Gen.ReferenceIdeal
import proofs.«116570_j5643587027453_1_alg».proof.Proof.Gen.ReferenceIdeal.Run
import proofs.«116570_j5643587027453_1_alg».proof.Proof.Gen.ReferenceIdeal.Read
import proofs.«116570_j5643587027453_1_alg».proof.Proof.Gen.Pre_finite_inputs
import proofs.«116570_j5643587027453_1_alg».proof.Proof.ChannelMask
import proofs.«116570_j5643587027453_1_alg».proof.Proof.RefValue
import proofs.«116570_j5643587027453_1_alg».proof.Proof.KernelBlocks
import proofs.«116570_j5643587027453_1_alg».proof.Proof.KernelValue
import Idealize.ShloMosaic.Adequacy
import Idealize.ShloMosaic.Init

noncomputable section

namespace Cert.Proof

open Idealize.ShloMosaic Idealize.SL.Sem Cert.ChannelMask

/-- The word-level kernel runs and keeps its arguments. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference is host operations only: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on `x`, `u` and `p`, both programs end with their result at `masked x u p`. -/
theorem algebraic : Cert.algebraic_KernelIdeal_ReferenceIdeal := by
  intro m ρ m' ρ' _ hagree
  refine ⟨_, Cert.KernelIdeal.KernelValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefValue.result_eq,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
